-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000x512 : Shape := ⟨2, ![1000, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x512 .f32) (main_arg1 : FVec F S1000x512 .f32) (main_arg2 : IVec S16384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 1000#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x512 : Shape := ⟨2, ![16384, 512]⟩
abbrev S1000x512 : Shape := ⟨2, ![1000, 512]⟩
abbrev S16384 : Shape := ⟨1, ![16384]⟩
abbrev S16384x1 : Shape := ⟨2, ![16384, 1]⟩
abbrev S_ : Shape := ⟨0, ![]⟩
abbrev S1000 : Shape := ⟨1, ![1000]⟩
abbrev S1x1000 : Shape := ⟨2, ![1, 1000]⟩
abbrev S16x1x128 : Shape := ⟨3, ![16, 1, 128]⟩
abbrev S1024x512 : Shape := ⟨2, ![1024, 512]⟩
abbrev S1024x1 : Shape := ⟨2, ![1024, 1]⟩
abbrev S1x1x128 : Shape := ⟨3, ![1, 1, 128]⟩
abbrev S1024 : Shape := ⟨1, ![1024]⟩
abbrev S1024x1000 : Shape := ⟨2, ![1024, 1000]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 16
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S16384, .i32⟩
  | .hbm, ⟨3, _⟩ => ⟨S16384x1, .i32⟩
  | .hbm, ⟨4, _⟩ => ⟨S1000x512, .bf16⟩
  | .hbm, ⟨5, _⟩ => ⟨S1000x512, .f32⟩
  | .hbm, ⟨6, _⟩ => ⟨S_, .f32⟩
  | .hbm, ⟨7, _⟩ => ⟨S1000, .f32⟩
  | .hbm, ⟨8, _⟩ => ⟨S1x1000, .f32⟩
  | .hbm, ⟨9, _⟩ => ⟨S16x1x128, .f32⟩
  | .hbm, ⟨10, _⟩ => ⟨S16x1x1, .f32⟩
  | .hbm, ⟨11, _⟩ => ⟨S16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x1, .i32⟩
  | .local _ .vmem, ⟨3, _⟩ => ⟨S1024x1, .i32⟩
  | .local _ .vmem, ⟨4, _⟩ => ⟨S1000x512, .bf16⟩
  | .local _ .vmem, ⟨5, _⟩ => ⟨S1x1000, .f32⟩
  | .local _ .vmem, ⟨6, _⟩ => ⟨S1x1x128, .f32⟩
  | .local _ .vmem, ⟨7, _⟩ => ⟨S1x1x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384_S16384x1 : S16384.ShapeCasts S16384x1
  bitsLt_bf16_f32 : FTy.bits .bf16 < FTy.bits .f32
  reducesTo_S1000x512_S1000_d1 : S1000x512.ReducesTo [1] S1000
  h_S_ : 0 < S_.numel
  bcast_S1000_S1x1000_1 : S1000.BroadcastsInDim S1x1000 (![1] : Fin 1 → Fin S1x1000.rank)
  inb_S1024x512_S1024x512_0_0 : ∀ a, (![0, 0] : Fin 2 → Nat) a + S1024x512.size a ≤ S1024x512.size a
  h_S1024x512 : 0 < S1024x512.numel
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  reduces_S1024x512_S1024 : S1024x512.Reduces [1] S1024
  shapeCasts_S1024_S1024x1 : S1024.ShapeCasts S1024x1
  broadcasts_S1024x1_S1024x1000 : S1024x1.Broadcasts S1024x1000
  broadcasts_S1x1000_S1024x1000 : S1x1000.Broadcasts S1024x1000
  iota_S1024x1000_d1_w32 : S1024x1000.Iotas .tc 32 [1]
  reduces_S1024x1000_S1024 : S1024x1000.Reduces [1] S1024
  natLt_1_32 : 1 < 32
  reduces_S1024x1_S1 : S1024x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  dot_S1024x512_S1000x512_S1024x1000_1_1_0_0_n_n_wf : DotDims.WF S1024x512 S1000x512 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S1000x512.size a
  hwx0_2 : ∀ i : grid0.Coords, EltTy.bits .bf16 = 32 ∨ (Rect.block (s := S1000x512) S1000x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

def dot_S1024x512_S1000x512_S1024x1000_1_1_0_0_n_n : DotDims S1024x512 S1000x512 S1024x1000 where
  lhsContracting := [1]
  rhsContracting := [1]
  lhsNonContracting := [0]
  rhsNonContracting := [0]
  lhsBatch := []
  rhsBatch := []
  wf := dot_S1024x512_S1000x512_S1024x1000_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000x512 : Shape := ⟨2, ![1000, 512]⟩
abbrev S16384 : Shape := ⟨1, ![16384]⟩
abbrev S_ : Shape := ⟨0, ![]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S512x1000 : Shape := ⟨2, ![512, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S16384, .i32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x512, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S512x1000, .f32⟩
  | .hbm, ⟨15, _⟩ => ⟨S16384x1000, .f32⟩
  | .hbm, ⟨16, _⟩ => ⟨S_, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S_, .f32⟩
  | .hbm, ⟨21, _⟩ => ⟨S16384x1000, .f32⟩
  | .hbm, ⟨22, _⟩ => ⟨S16384x1000, .f32⟩
  | .hbm, ⟨23, _⟩ => ⟨S16384x1, .i32⟩
  | .hbm, ⟨24, _⟩ => ⟨S_, .i32⟩
  | .hbm, ⟨25, _⟩ => ⟨S16384x1, .i32⟩
  | .hbm, ⟨26, _⟩ => ⟨S16384x1, .i1⟩
  | .hbm, ⟨27, _⟩ => ⟨S_, .i32⟩
  | .hbm, ⟨28, _⟩ => ⟨S16384x1, .i32⟩
  | .hbm, ⟨29, _⟩ => ⟨S16384x1, .i32⟩
  | .hbm, ⟨30, _⟩ => ⟨S16384x1, .i32⟩
  | .hbm, ⟨31, _⟩ => ⟨S16384x1x1, .i32⟩
  | .hbm, ⟨32, _⟩ => ⟨S1, .i32⟩
  | .hbm, ⟨33, _⟩ => ⟨S_, .i32⟩
  | .hbm, ⟨34, _⟩ => ⟨S16384x1x1, .i32⟩
  | .hbm, ⟨35, _⟩ => ⟨S16384x1x1, .i1⟩
  | .hbm, ⟨36, _⟩ => ⟨S1x1x1, .i32⟩
  | .hbm, ⟨37, _⟩ => ⟨S16384x1x1, .i32⟩
  | .hbm, ⟨38, _⟩ => ⟨S16384x1x1, .i1⟩
  | .hbm, ⟨39, _⟩ => ⟨S16384x1x1, .i1⟩
  | .hbm, ⟨40, _⟩ => ⟨S_, .i1⟩
  | .hbm, ⟨41, _⟩ => ⟨S16384x1, .i1⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S1000, .i32⟩
  | .hbm, ⟨51, _⟩ => ⟨S1x1000, .i32⟩
  | .hbm, ⟨52, _⟩ => ⟨S16384x1, .i32⟩
  | .hbm, ⟨53, _⟩ => ⟨S16384x1000, .i32⟩
  | .hbm, ⟨54, _⟩ => ⟨S16384x1000, .i32⟩
  | .hbm, ⟨55, _⟩ => ⟨S16384x1000, .i1⟩
  | .hbm, ⟨56, _⟩ => ⟨S_, .f32⟩
  | .hbm, ⟨57, _⟩ => ⟨S_, .f32⟩
  | .hbm, ⟨58, _⟩ => ⟨S16384x1000, .f32⟩
  | .hbm, ⟨59, _⟩ => ⟨S16384x1000, .f32⟩
  | .hbm, ⟨60, _⟩ => ⟨S_, .f32⟩
  | .hbm, ⟨61, _⟩ => ⟨S16384, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v17 : Ref sig .tc := ⟨.hbm, 45, rfl⟩
abbrev main_v18 : Ref sig .tc := ⟨.hbm, 46, rfl⟩
abbrev main_cst_3 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_v27 : Ref sig .tc := ⟨.hbm, 59, rfl⟩
abbrev main_cst_5 : Ref sig .tc := ⟨.hbm, 60, rfl⟩
abbrev main_v28 : Ref sig .tc := ⟨.hbm, 61, rfl⟩
abbrev main_cst_6 : Ref sig .tc := ⟨.hbm, 62, rfl⟩
abbrev main_v29 : Ref sig .tc := ⟨.hbm, 63, rfl⟩
abbrev main_v30 : Ref sig .tc := ⟨.hbm, 64, rfl⟩
abbrev main_cst_7 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_8 : Ref sig .tc := ⟨.hbm, 71, rfl⟩
abbrev main_v36 : Ref sig .tc := ⟨.hbm, 72, rfl⟩
abbrev main_cst_9 : Ref sig .tc := ⟨.hbm, 73, rfl⟩
abbrev main_v37 : Ref sig .tc := ⟨.hbm, 74, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1000x512_S1000_d1 : S1000x512.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x512_S512x1000_1_0 : S1000x512.Transposes [1, 0] S512x1000
  bcast_S_S16384x1000 : S_.BroadcastsInDim S16384x1000 (![] : Fin 0 → Fin S16384x1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  reducesTo_S16384x1000_S16384_d1 : S16384x1000.ReducesTo [1] S16384
  reducesTo_S16384_S_d0 : S16384.ReducesTo [0] S_
  dot_S16384x512_S512x1000_S16384x1000_1_0_0_1_n_n_wf : DotDims.WF S16384x512 S512x1000 S16384x1000 [1] [0] [0] [1] [] []
  gather_S16384x1000_S16384x1x1_S16384x1_n_1_0_0_1_2_11_wf : GatherDims.WF S16384x1000 S16384x1x1 S16384x1 [] [1] [0] [1] [0] 2 ![1, 1]

variable [Facts₀]

def dot_S16384x512_S512x1000_S16384x1000_1_0_0_1_n_n : DotDims S16384x512 S512x1000 S16384x1000 where
  lhsContracting := [1]
  rhsContracting := [0]
  lhsNonContracting := [0]
  rhsNonContracting := [1]
  lhsBatch := []
  rhsBatch := []
  wf := dot_S16384x512_S512x1000_S16384x1000_1_0_0_1_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.Spec.lean ====
/-
  The loss both programs compute, as one function on the extended reals.

  For a row `xr` of the batch and the class centres `Cm k` with their squared norms `q k`, the squared distance to centre `k`
  is `‖xr‖² + q k − 2·⟨xr, Cm k⟩`, floored at zero. The row's loss is `log (1 + exp (pos + margin − neg))` with
  `pos` half the distance to the row's own centre and `neg` half the least distance to any OTHER centre: the minimum over
  all classes of the distances with the own class's entry replaced by `+∞`. The result is the mean of the row losses.

  The literals stay the words the programs print (`2`, `1/2`, the margin `5`, the batch size); only the three facts the
  two arrangements need are evaluated: the zero word is `0`, the infinity word is `⊤`, and halving is the quotient by two.
  The laws below are those of the extended reals: adding `m·⊤` for a 0/1 mask `m` to a value that is not `⊥` replaces it
  by `⊤` where the mask is set and leaves it where it is not (`0·⊤ = 0`); a sum against a one-hot mask is the selected
  entry; a sum over the 16384 rows is the sum over 16 tiles of the sums over each tile's 1024 rows.
-/
import Idealize.ShloMosaic.PureOps.Ideal
import Idealize.ShloMosaic.PureOps.Ideal.Laws
import Idealize.ShloMosaic.Lib.ValueIdx

noncomputable section

namespace Cert.CenterLoss

open Idealize.ShloMosaic

/-! ## The literals -/

abbrev zeroW : EReal := Ideal.ofBits .f32 0x00000000#32
abbrev two : EReal := Ideal.ofBits .f32 0x40000000#32
abbrev half : EReal := Ideal.ofBits .f32 0x3F000000#32
abbrev margin : EReal := Ideal.ofBits .f32 0x40A00000#32
abbrev infW : EReal := Ideal.ofBits .f32 0x7F800000#32
abbrev count : EReal := Ideal.ofBits .f32 0x46800000#32

theorem zeroW_eq : zeroW = 0 := Ideal.ofBits_zero_f32

theorem infW_eq : infW = ⊤ := by simp [infW, Ideal.ofBits, Ideal.ieee]

theorem two_eq : two = ((2 : ℝ) : EReal) := by
  simp [two, Ideal.ofBits, Ideal.ieee, -EReal.coe_mul]; norm_num

theorem half_eq : half = ((1 / 2 : ℝ) : EReal) := by
  simp [half, Ideal.ofBits, Ideal.ieee, -EReal.coe_mul]; norm_num

/-- Halving: the quotient by the word `2` is the product with the word `1/2`, on every extended real. -/
theorem div_two (x : EReal) : Ideal.div x two = x * half := by
  rw [two_eq, half_eq]; exact Ideal.div_coe (by norm_num) x

/-! ## The function -/

/-- The squared distance between a row and a centre whose squared norm is `q`, floored at zero. -/
def sqDist (xr cr : Fin 512 → EReal) (q : EReal) : EReal :=
  max ((∑ d, xr d * xr d) + q - two * ∑ d, xr d * cr d) zeroW

/-- The least of the distances `s k` over the classes other than `l`: the own class's entry is `+∞`. -/
def nearestOther (s : Fin 1000 → EReal) (l : Fin 1000) : EReal :=
  (Finset.univ : Finset (Fin 1000)).fold min infW fun k => if k = l then infW else s k

/-- One row's loss, for the row's label `l`. -/
def rowLoss (xr : Fin 512 → EReal) (Cm : Fin 1000 → Fin 512 → EReal) (q : Fin 1000 → EReal) (l : Fin 1000) : EReal :=
  Ideal.log1p (Ideal.exp (sqDist xr (Cm l) (q l) * half + margin
    - nearestOther (fun k => sqDist xr (Cm k) (q k)) l * half))

/-- The mean over the batch. -/
def meanLoss (f : Fin 16384 → EReal) : EReal := Ideal.div (zeroW + ∑ R, f R) count

/-! ## The laws that join the two arrangements -/

theorem sqDist_ne_bot (xr cr : Fin 512 → EReal) (q : EReal) : sqDist xr cr q ≠ ⊥ := by
  unfold sqDist
  rw [zeroW_eq]
  exact ne_of_gt (lt_of_lt_of_le (EReal.bot_lt_zero) (le_max_right _ _))

/-- Where the mask is set, adding `1·⊤` to a value that is not `⊥` gives `⊤`. -/
theorem add_one_mul_top {s : EReal} (hs : s ≠ ⊥) : s + ((1 : ℝ) : EReal) * ⊤ = ⊤ := by
  rw [EReal.coe_one, one_mul]; exact EReal.add_top_of_ne_bot hs

/-- Where it is not, adding `0·⊤` changes nothing. -/
theorem add_zero_mul_top (s : EReal) : s + ((0 : ℝ) : EReal) * ⊤ = s := by
  rw [EReal.coe_zero, zero_mul, add_zero]

/-- A sum against the one-hot mask of `l` is the entry at `l`. -/
theorem sum_onehot (s : Fin 1000 → EReal) (l : Fin 1000) :
    (∑ k, if k = l then s k else zeroW) = s l := by
  rw [zeroW_eq, Finset.sum_ite_eq' Finset.univ l s, if_pos (Finset.mem_univ _)]

/-- The row of the batch that is row `r` of tile `t`. -/
def tileRow (t : Fin 16) (r : Fin 1024) : Fin 16384 := ⟨1024 * t.val + r.val, by omega⟩

/-- A sum over the batch is the sum over the tiles of the sums over each tile's rows. -/
theorem sum_tiles (f : Fin 16384 → EReal) : (∑ R, f R) = ∑ t : Fin 16, ∑ r : Fin 1024, f (tileRow t r) := by
  rw [← Finset.sum_product', Finset.univ_product_univ]
  refine (Fintype.sum_equiv (finProdFinEquiv (m := 16) (n := 1024)) (fun p => f (tileRow p.1 p.2)) f (fun p => ?_)).symm
  exact congrArg f (Fin.ext (by simp only [tileRow, finProdFinEquiv_apply_val]; omega))

end Cert.CenterLoss

end
-- ==== Proof.RefValue.lean ====
/-
  The reference's result is the mean row loss.

  Read one operation at a time, the reference computes for each row `R` of the batch the squared norms of the row and of
  every centre (each the zero word plus a sum of 512 squares), the 16384 × 1000 table of floored squared distances, the own-class
  distance by an indexed read of that table at the row's label, the least distance to another class by a minimum over the
  table's row with the own class's entry replaced by the infinity word, the loss `log (1 + exp (pos/2 + margin − neg/2))`, and the
  sum of the losses divided by the batch size. For labels in `[0, 1000)` the indexed read's wrap-around and range test are the
  identity and true, and halving by the quotient is halving by the product, so this is `Cert.CenterLoss.meanLoss` of
  `Cert.CenterLoss.rowLoss`.
-/
import proofs.«416742_j15917148799624_3_alg».proof.Proof.RefRead
import proofs.«416742_j15917148799624_3_alg».proof.Proof.Spec
import Idealize.ShloMosaic.Lib.Pipeline.Value
import Idealize.ShloMosaic.Lib.ValueIdx
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx Cert.CenterLoss

/-! ## Where the table's operands are read -/

/-- The row's squared norm at table entry `(R, k)` sums the squares of row `R`. -/
theorem idx_rowsq (R : Fin 16384) (k : Fin 1000) (d : Fin 512) :
    idx_main_v1 (idx_main_v2 (idx_main_v6 (ix2 R k))) d = ix2 R d :=
  funext fun a => Fin.ext (by match a with | ⟨0, _⟩ => rfl | ⟨1, _⟩ => rfl)

/-- The centre's squared norm at table entry `(R, k)` sums the squares of centre `k`. -/
theorem idx_censq (R : Fin 16384) (k : Fin 1000) (d : Fin 512) :
    idx_main_v4 (idx_main_v5 (idx_main_v7 (ix2 R k))) d = ix2 k d :=
  funext fun a => Fin.ext (by match a with | ⟨0, _⟩ => rfl | ⟨1, _⟩ => rfl)

/-- The product at `(R, k)` reads row `R` on the left … -/
theorem idx_dotl (R : Fin 16384) (k : Fin 1000) (d : Fin 512) :
    lidx_main_v10 (ix2 R k) d = ix2 R d :=
  funext fun a => Fin.ext (by match a with | ⟨0, _⟩ => rfl | ⟨1, _⟩ => rfl)

/-- … and, through the transpose, centre `k` on the right. -/
theorem idx_dotr (R : Fin 16384) (k : Fin 1000) (d : Fin 512) :
    idx_main_v9 (ridx_main_v10 (ix2 R k) d) = ix2 k d :=
  funext fun a => Fin.ext (by match a with | ⟨0, _⟩ => rfl | ⟨1, _⟩ => rfl)

/-! ## The table of floored squared distances -/

/-- Entry `(R, k)` of the table is the floored squared distance between row `R` and centre `k`, the centre's squared norm
    as the reference forms it: the zero word plus the sum of the centre's squares. -/
theorem table_apply (X : (⟨S16384x512, .f32⟩ : BufTy).Contents (Elt Ideal)) (C : (⟨S1000x512, .f32⟩ : BufTy).Contents (Elt Ideal))
    (R : Fin 16384) (k : Fin 1000) :
    val_main_v15 (F := Ideal) X C (ix2 R k)
      = sqDist (fun d => X (ix2 R d)) (fun d => C (ix2 k d)) (zeroW + ∑ d : Fin 512, C (ix2 k d) * C (ix2 k d)) := by
  rw [val_main_v15_apply, val_main_v13_apply, val_main_v8_apply, val_main_v6_apply, val_main_v2_apply, val_main_v1_apply,
    val_main_v7_apply, val_main_v5_apply, val_main_v4_apply, val_main_v12_apply, val_main_v11_apply, val_main_v10_apply,
    val_main_v14_apply]
  simp only [val_main_v0_apply, val_main_v3_apply, val_main_v9_apply, val_main_cst_apply, val_main_cst_0_apply,
    val_main_cst_1_apply, val_main_cst_2_apply, idx_rowsq, idx_censq, idx_dotl, idx_dotr,
    Ideal.ofBits_def, Ideal.addf_def, Ideal.subf_def, Ideal.mulf_def, Ideal.maximumf_def]
  -- the row's squared norm is printed as the zero word plus the sum; the zero word is `0`
  have e : zeroW + ∑ d : Fin 512, X (ix2 R d) * X (ix2 R d) = ∑ d : Fin 512, X (ix2 R d) * X (ix2 R d) := by
    rw [zeroW_eq, zero_add]
  rw [e]
  rfl

/-! ## Words: a label below the class count -/

/-- A number below the class count is its word's value. -/
theorem toNat_label (n : Nat) (hn : n < 1000) : (BitVec.ofNat 32 n).toNat = n := by
  rw [BitVec.toNat_ofNat]; omega

/-- Read signed, such a word is not negative: the wrap-around test `label < 0` fails. -/
theorem label_not_neg (n : Nat) (hn : n < 1000) : IntOp.cmpi .slt (BitVec.ofNat 32 n) 0#32 = 0#1 := by
  refine eq_zero_of_ne_one fun h1 => ?_
  have h := (StableHlo.Predicate.slt_iff_toNat (a := BitVec.ofNat 32 n) (b := 0#32)
    (by rw [toNat_label n hn]; omega) (by decide)).mp h1
  exact absurd h (Nat.not_lt_zero _)

/-- The range test `0 ≤ label ≤ 999`, folded with the initial `true`, holds. -/
theorem label_in_range (n : Nat) (hn : n < 1000) :
    IntOp.andi (IntOp.andi (IntOp.cmpi .sge (BitVec.ofNat 32 n) 0#32) (IntOp.cmpi .sle (BitVec.ofNat 32 n) 999#32)) 1#1 = 1#1 := by
  have hlt : (BitVec.ofNat 32 n).toNat < 2 ^ 31 := by rw [toNat_label n hn]; omega
  refine IntOp.andi_eq_one.mpr ⟨IntOp.andi_eq_one.mpr ⟨?_, ?_⟩, rfl⟩
  · exact (StableHlo.Predicate.sge_iff_toNat (a := BitVec.ofNat 32 n) (b := 0#32) hlt (by decide)).mpr (Nat.zero_le _)
  · refine (StableHlo.Predicate.sle_iff_toNat (a := BitVec.ofNat 32 n) (b := 999#32) hlt (by decide)).mpr ?_
    rw [toNat_label n hn]; show n ≤ 999; omega

/-- Read signed and clamped into `[0, 999]`, such a word is the number. -/
theorem label_clamped (n : Nat) (hn : n < 1000) : min (BitVec.ofNat 32 n).toInt.toNat (1000 - 1) = n := by
  rw [StableHlo.Predicate.toInt_ofNat_small n (by omega), Int.toNat_natCast]; omega

/-- Two such words are equal exactly when the numbers are. -/
theorem label_eq_iff (a b : Nat) (ha : a < 1000) (hb : b < 1000) : BitVec.ofNat 32 a = BitVec.ofNat 32 b ↔ a = b :=
  ⟨fun h => by have := congrArg BitVec.toNat h; rwa [toNat_label a ha, toNat_label b hb] at this, fun h => by rw [h]⟩

/-! ## The label stages of the indexed read -/

section Labels

variable (L : (⟨S16384, .i32⟩ : BufTy).Contents (Elt Ideal)) (lab : Fin 16384 → Fin 1000)
  (hL : ∀ R : Fin 16384, L (ix1 R) = BitVec.ofNat 32 (lab R).val)
include hL

/-- The labels as a column: entry `(R, 0)` is the label of row `R`. -/
theorem label_col (R : Fin 16384) : val_main_v16 (F := Ideal) L (ix2 R (0 : Fin 1)) = BitVec.ofNat 32 (lab R).val := by
  rw [val_main_v16_apply]
  exact (congrArg L (funext fun a => Fin.ext (by match a with | ⟨0, _⟩ => rfl))).trans (hL R)

/-- The wrap-around of a negative index leaves a label in range as it is. -/
theorem label_wrapped (R : Fin 16384) : val_main_call0_v4 (F := Ideal) L (ix2 R (0 : Fin 1)) = BitVec.ofNat 32 (lab R).val := by
  rw [val_main_call0_v4_apply, val_main_call0_v1_apply, label_col L lab hL R, val_main_call0_v0_apply, val_main_call0_c_apply,
    label_not_neg _ (lab R).isLt, select_zero]

/-- The start index of row `R`, `(R, 0, 0)` of the reshaped column, is the label. -/
theorem label_start (R : Fin 16384) :
    val_main_call0_v5 (F := Ideal) L (ix3 R (0 : Fin 1) (0 : Fin 1)) = BitVec.ofNat 32 (lab R).val := by
  rw [val_main_call0_v5_apply]
  refine Eq.trans (congrArg (val_main_call0_v4 (F := Ideal) L) (funext fun a => Fin.ext ?_)) (label_wrapped L lab hL R)
  match a with
  | ⟨0, _⟩ => show ((R.val * 1 + 0) * 1 + 0) / 1 = R.val; omega
  | ⟨1, _⟩ => rfl

end Labels

/-! ## The range test: a conjunction over an axis of one element -/

/-- A fold over an axis of one element is one step from the initial value. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- Entry `(R, 0)` of the reduced test, with the one coordinate of the dropped axis put back, is `(R, 0, 0)`. -/
theorem lift_test (h : S16384x1x1.Reduces [2] S16384x1) (R : Fin 16384) (k : Fin (S16384x1x1.size 2)) :
    h.lift (ix2 R (0 : Fin 1)) k = ix3 R (0 : Fin 1) (0 : Fin 1) :=
  funext fun c => Fin.ext (by
    match c with
    | ⟨0, _⟩ => rfl
    | ⟨1, _⟩ => rfl
    | ⟨2, _⟩ => have hk : k.val < 1 := k.isLt; show k.val = 0; omega)

section Labels

variable (L : (⟨S16384, .i32⟩ : BufTy).Contents (Elt Ideal)) (lab : Fin 16384 → Fin 1000)
  (hL : ∀ R : Fin 16384, L (ix1 R) = BitVec.ofNat 32 (lab R).val)
include hL

/-- For a label in range the indexed read's range test is true at every row. -/
theorem label_ok (R : Fin 16384) : val_main_call0_v12 (F := Ideal) L (ix2 R (0 : Fin 1)) = 1#1 := by
  have h : S16384x1x1.Reduces [2] S16384x1 := by decide
  unfold val_main_call0_v12
  rw [Host.reduce_eq_fold_single IntOp.andi _ _ reducesTo_S16384x1x1_S16384x1_d2 h h_S_]
  refine (fold_fin_one IntOp.andi _ _).trans ?_
  refine Eq.trans (congrArg (fun i => IntOp.andi (val_main_call0_v11 (F := Ideal) L i) 1#1) (lift_test h R _)) ?_
  show IntOp.andi (val_main_call0_v11 (F := Ideal) L (ix3 R (0 : Fin 1) (0 : Fin 1))) 1#1 = 1#1
  rw [val_main_call0_v11_apply, val_main_call0_v7_apply, val_main_call0_v10_apply, label_start L lab hL R,
    val_main_call0_v6_apply, val_main_call0_c_2_apply, val_main_call0_v9_apply, val_main_call0_v8_apply,
    val_main_call0_c_1_apply]
  exact label_in_range _ (lab R).isLt

end Labels

/-! ## The indexed read -/

/-- On the batching axis the operand index of result entry `(R, 0)` is the row `R`. -/
theorem gather_axis0 (idx : IVec S16384x1x1 32) (R : Fin 16384) :
    (gather_S16384x1000_S16384x1x1_S16384x1_n_1_0_0_1_2_11.operandIdx (ix2 R (0 : Fin 1)) idx 0).val = R.val := by
  show gather_S16384x1000_S16384x1x1_S16384x1_n_1_0_0_1_2_11.start (ix2 R (0 : Fin 1)) idx 0 + gather_S16384x1000_S16384x1x1_S16384x1_n_1_0_0_1_2_11.batchCoord (ix2 R (0 : Fin 1)) 0
    + gather_S16384x1000_S16384x1x1_S16384x1_n_1_0_0_1_2_11.offCoord (ix2 R (0 : Fin 1)) 0 = R.val
  rw [GatherDims.start_batching gather_S16384x1000_S16384x1x1_S16384x1_n_1_0_0_1_2_11 (ix2 R (0 : Fin 1)) idx 0 (by decide),
    GatherDims.offCoord_eq_zero gather_S16384x1000_S16384x1x1_S16384x1_n_1_0_0_1_2_11 (ix2 R (0 : Fin 1)) 0 (by decide), Nat.zero_add, Nat.add_zero]
  unfold GatherDims.batchCoord
  rw [dif_pos (show (0 : Fin S16384x1000.rank) ∈ gather_S16384x1000_S16384x1x1_S16384x1_n_1_0_0_1_2_11.operandBatchingDims by decide)]
  rfl

/-- On the collapsed axis it is the start index `(R, 0, 0)`, read signed and clamped: the class itself when the word there is
    that of a class. -/
theorem gather_axis1 (idx : IVec S16384x1x1 32) (R : Fin 16384) (l : Fin 1000)
    (hidx : idx (ix3 R (0 : Fin 1) (0 : Fin 1)) = BitVec.ofNat 32 l.val) :
    (gather_S16384x1000_S16384x1x1_S16384x1_n_1_0_0_1_2_11.operandIdx (ix2 R (0 : Fin 1)) idx 1).val = l.val := by
  show gather_S16384x1000_S16384x1x1_S16384x1_n_1_0_0_1_2_11.start (ix2 R (0 : Fin 1)) idx 1 + gather_S16384x1000_S16384x1x1_S16384x1_n_1_0_0_1_2_11.batchCoord (ix2 R (0 : Fin 1)) 1
    + gather_S16384x1000_S16384x1x1_S16384x1_n_1_0_0_1_2_11.offCoord (ix2 R (0 : Fin 1)) 1 = l.val
  rw [GatherDims.batchCoord_eq_zero gather_S16384x1000_S16384x1x1_S16384x1_n_1_0_0_1_2_11 (ix2 R (0 : Fin 1)) 1 (by decide),
    GatherDims.offCoord_eq_zero gather_S16384x1000_S16384x1x1_S16384x1_n_1_0_0_1_2_11 (ix2 R (0 : Fin 1)) 1 (by decide), Nat.add_zero]
  unfold GatherDims.start
  rw [dif_pos (show (1 : Fin S16384x1000.rank) ∈ gather_S16384x1000_S16384x1x1_S16384x1_n_1_0_0_1_2_11.startIndexMap by decide)]
  have hsi : gather_S16384x1000_S16384x1x1_S16384x1_n_1_0_0_1_2_11.siIdx (ix2 R (0 : Fin 1))
      ⟨List.idxOf (1 : Fin S16384x1000.rank) gather_S16384x1000_S16384x1x1_S16384x1_n_1_0_0_1_2_11.startIndexMap, List.idxOf_lt_length_iff.2 (by decide)⟩
      = ix3 R (0 : Fin 1) (0 : Fin 1) := by
    funext b; refine Fin.ext ?_
    match b with
    | ⟨0, _⟩ => rfl
    | ⟨1, _⟩ => rfl
    | ⟨2, _⟩ => rfl
  rw [hsi, hidx]
  exact label_clamped l.val l.isLt

/-- The indexed read at row `R`: when the start index `(R, 0, 0)` holds the word of a class `l`, entry `(R, 0)` of the result
    is entry `(R, l)` of the operand. -/
theorem gather_row {α : Type} (x : S16384x1000.Idx → α) (idx : IVec S16384x1x1 32) (R : Fin 16384) (l : Fin 1000)
    (hidx : idx (ix3 R (0 : Fin 1) (0 : Fin 1)) = BitVec.ofNat 32 l.val) :
    Host.gather gather_S16384x1000_S16384x1x1_S16384x1_n_1_0_0_1_2_11 x idx (ix2 R (0 : Fin 1)) = x (ix2 R l) := by
  unfold Host.gather
  refine congrArg x (funext fun a => Fin.ext ?_)
  match a with
  | ⟨0, _⟩ => exact gather_axis0 idx R
  | ⟨1, _⟩ => exact gather_axis1 idx R l hidx

/-! ## The own-class distance, the masked table and its row minimum -/

/-- Entry `R` of the row minimum, with class `k` put back on the dropped axis, is `(R, k)`. -/
theorem lift_class (h : S16384x1000.Reduces [1] S16384) (R : Fin 16384) (k : Fin 1000) :
    h.lift (ix1 R) k = ix2 R k :=
  funext fun c => Fin.ext (by match c with | ⟨0, _⟩ => rfl | ⟨1, _⟩ => rfl)

section Labels

variable (L : (⟨S16384, .i32⟩ : BufTy).Contents (Elt Ideal)) (lab : Fin 16384 → Fin 1000)
  (hL : ∀ R : Fin 16384, L (ix1 R) = BitVec.ofNat 32 (lab R).val)
  (X : (⟨S16384x512, .f32⟩ : BufTy).Contents (Elt Ideal)) (C : (⟨S1000x512, .f32⟩ : BufTy).Contents (Elt Ideal))
include hL

/-- The indexed read of the table at the labels: entry `(R, 0)` is the distance of row `R` to its own centre. -/
theorem own_apply (R : Fin 16384) :
    val_main_v17 (F := Ideal) X C L (ix2 R (0 : Fin 1))
      = sqDist (fun d => X (ix2 R d)) (fun d => C (ix2 (lab R) d))
          (zeroW + ∑ d : Fin 512, C (ix2 (lab R) d) * C (ix2 (lab R) d)) := by
  rw [val_main_v17_apply, label_ok L lab hL R, select_one]
  unfold val_main_call0_v13
  rw [gather_row _ _ R (lab R) (label_start L lab hL R), table_apply]

/-- The table with the own class masked: entry `(R, k)` is the infinity word where `k` is the label of row `R`, the
    distance elsewhere. -/
theorem masked_apply (R : Fin 16384) (k : Fin 1000) :
    val_main_v27 (F := Ideal) X C L (ix2 R k)
      = if k = lab R then infW else sqDist (fun d => X (ix2 R d)) (fun d => C (ix2 k d))
          (zeroW + ∑ d : Fin 512, C (ix2 k d) * C (ix2 k d)) := by
  rw [val_main_v27_apply, val_main_v26_apply, val_main_v24_apply, val_main_v22_apply, val_main_v21_apply,
    val_main_v25_apply, val_main_v23_apply, val_main_call1_v1_apply, val_main_call1_v0_apply, val_main_cst_4_apply,
    table_apply]
  have hl : L (idx_main_v23 (idx_main_v25 (ix2 R k))) = BitVec.ofNat 32 (lab R).val :=
    (congrArg L (funext fun a => Fin.ext (by match a with | ⟨0, _⟩ => rfl))).trans (hL R)
  rw [hl]
  show Scalar.select (IntOp.cmpi .eq (BitVec.ofNat 32 k.val) (BitVec.ofNat 32 (lab R).val)) infW _ = _
  by_cases hk : k = lab R
  · rw [if_pos hk, hk, IntOp.cmpi_eq.mpr rfl, select_one]
  · rw [if_neg hk, eq_zero_of_ne_one (fun h1 =>
      hk (Fin.ext ((label_eq_iff _ _ k.isLt (lab R).isLt).mp (IntOp.cmpi_eq.mp h1)))), select_zero]

/-- The row minimum of the masked table from the infinity word is the least distance to another class. -/
theorem nearest_apply (R : Fin 16384) :
    val_main_v28 (F := Ideal) X C L (ix1 R)
      = nearestOther (fun k => sqDist (fun d => X (ix2 R d)) (fun d => C (ix2 k d))
          (zeroW + ∑ d : Fin 512, C (ix2 k d) * C (ix2 k d))) (lab R) := by
  have h : S16384x1000.Reduces [1] S16384 := by decide
  unfold val_main_v28
  rw [Host.reduce_eq_fold_single FloatOps.minimumf _ _ reducesTo_S16384x1000_S16384_d1 h h_S_]
  unfold nearestOther
  show Finset.fold min infW (fun k : Fin 1000 => val_main_v27 (F := Ideal) X C L (h.lift (ix1 R) k)) Finset.univ = _
  refine Finset.fold_congr (fun k _ => ?_)
  exact (congrArg (val_main_v27 (F := Ideal) X C L) (lift_class h R k)).trans (masked_apply L lab hL X C R k)

/-- One row's loss. -/
theorem row_apply (R : Fin 16384) :
    val_main_v35 (F := Ideal) X C L (ix1 R)
      = rowLoss (fun d => X (ix2 R d)) (fun k d => C (ix2 k d))
          (fun k => zeroW + ∑ d : Fin 512, C (ix2 k d) * C (ix2 k d)) (lab R) := by
  have hi : idx_main_v18 (ix1 R) = ix2 R (0 : Fin 1) := funext fun a => Fin.ext (by
    match a with
    | ⟨0, _⟩ => show R.val / 1 = R.val; omega
    | ⟨1, _⟩ => rfl)
  rw [val_main_v35_apply, val_main_v34_apply, val_main_v33_apply, val_main_v32_apply, val_main_v20_apply, val_main_v30_apply,
    val_main_v19_apply, val_main_v29_apply, val_main_v31_apply, val_main_cst_3_apply, val_main_cst_6_apply,
    val_main_cst_7_apply, nearest_apply L lab hL X C R, val_main_v18_apply, hi, own_apply L lab hL X C R]
  simp only [Ideal.hostUnary_log1p_def, Ideal.hostUnary_exp_def, Ideal.hostDivf_def, Ideal.addf_def, Ideal.subf_def,
    Ideal.ofBits_def]
  rw [div_two, div_two]
  rfl

end Labels

/-! ## The sum over the batch -/

/-- A rank-1 index of the batch is its coordinate. -/
def rowEquiv : S16384.Idx ≃ Fin 16384 where
  toFun j := j 0
  invFun R := ix1 R
  left_inv j := (eq_ix1 j).symm
  right_inv _ := rfl

/-- A sum over the batch's indices is the sum over the rows. -/
theorem sum_rows (f : S16384.Idx → EReal) : (∑ j, f j) = ∑ R : Fin 16384, f (ix1 R) :=
  (Fintype.sum_equiv rowEquiv.symm (fun R => f (ix1 R)) f (fun _ => rfl)).symm

/-! ## The result -/

/-- The reference's result, for labels in range, is the mean over the batch of the row losses: the row `R` of `X`, the centres
    `C` with each centre's squared norm the zero word plus the sum of its squares, the label `lab R`. -/
theorem ref_value (X : (⟨S16384x512, .f32⟩ : BufTy).Contents (Elt Ideal)) (C : (⟨S1000x512, .f32⟩ : BufTy).Contents (Elt Ideal))
    (L : (⟨S16384, .i32⟩ : BufTy).Contents (Elt Ideal)) (lab : Fin 16384 → Fin 1000)
    (hL : ∀ R : Fin 16384, L (ix1 R) = BitVec.ofNat 32 (lab R).val) (i : S_.Idx) :
    Cert.ReferenceIdeal.ReadP.val_main_v37 (F := Ideal) X C L i
      = meanLoss fun R => rowLoss (fun d => X (ix2 R d)) (fun k d => C (ix2 k d))
          (fun k => zeroW + ∑ d : Fin 512, C (ix2 k d) * C (ix2 k d)) (lab R) := by
  rw [val_main_v37_apply, val_main_v36_apply, sum_rows (val_main_v35 (F := Ideal) X C L), val_main_cst_8_apply,
    val_main_cst_9_apply]
  simp only [Ideal.hostDivf_def, Ideal.ofBits_def]
  unfold meanLoss
  exact congrArg (fun s => Ideal.div (zeroW + s) count) (Finset.sum_congr rfl fun R _ => row_apply L lab hL X C R)

end Cert.ReferenceIdeal.RefValue

end
-- ==== Proof.KernelTile.lean ====
/-
  What one grid point writes: the sum of its tile's row losses.

  The body loads a tile of 1024 rows `x0`, the rows' labels `x1`, all 1000 centres `x2` and their squared norms `x3`. It forms the
  1024 × 1000 table of floored squared distances (the rows' squared norms by a lane sum, the inner products by the matrix
  product into a zero accumulator), the one-hot mask of each row's label against the class index, `pos` as half the masked lane
  sum, `neg` as half the lane minimum of the table plus the mask times the named `+∞`, the row losses, and their sum over the
  tile, which it stores in every lane of its 1 × 1 × 128 block. For labels in `[0, 1000)` the masked sum is the own-class entry and
  the masked table is the table with the own class's entry at `+∞`, so every lane holds the sum of `Cert.CenterLoss.rowLoss`
  over the tile's rows.
-/
import proofs.«416742_j15917148799624_3_alg».proof.Proof.Gen.KernelIdeal.Frame
import proofs.«416742_j15917148799624_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.CenterLoss

/-! ## Two column layouts -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The rows' squared norms (a lane sum of squares, as a column, broadcast along the classes), at an entry. -/
theorem rowsq_apply (v0 : Vec Ideal S1024x512 .f32) (r : Fin 1024) (k : Fin 1000) :
    broadcastTo S1024x1000 (shapeCast S1024x1 (multiReduction (F := Ideal) .add [1] S1024 (mulf v0 v0) 0x00000000#32 reduces_S1024x512_S1024 (.inl rfl) rfl)
      shapeCasts_S1024_S1024x1) broadcasts_S1024x1_S1024x1000 (ix2 r k) = ∑ d : Fin 512, v0 (ix2 r d) * v0 (ix2 r d) := by
  refine (broadcastTo_a1_ab_apply _ _ r k).trans ?_
  refine (shapeCast_a_a1_apply _ _ r 0).trans ?_
  refine (Ideal.multiReduction_add_single _ _ _ _ _ _).trans ?_
  refine Finset.sum_congr rfl fun d _ => ?_
  have e : reduces_S1024x512_S1024.lift (ix1 r) d = ix2 r d := by
    funext a; match a with | ⟨0, _⟩ => rfl | ⟨1, _⟩ => rfl
  exact congrArg (fun i => v0 i * v0 i) e

/-- The centres' squared norms (one row, broadcast along the tile's rows), at an entry. -/
theorem cnorm_apply (v5 : Vec Ideal S1x1000 .f32) (r : Fin 1024) (k : Fin 1000) :
    broadcastTo S1024x1000 (shapeCast S1x1000 v5 shapeCasts_S1x1000_S1x1000) broadcasts_S1x1000_S1024x1000 (ix2 r k) = v5 (ix2 0 k) := by
  rw [shapeCast_self]
  exact broadcastTo_1b_ab_apply _ _ r k

/-! ## The matrix product of the tile with the centres, at an entry -/

/-- The left operand's index at output `i` and contraction position `q`: its row is the output's row, -/
theorem lhs_dot_0 (i : S1024x1000.Idx) (q : dot_S1024x512_S1000x512_S1024x1000_1_1_0_0_n_n.contr.Idx) :
    (dot_S1024x512_S1000x512_S1024x1000_1_1_0_0_n_n.lhsIdx i q 0).val = (i 0).val := by
  unfold DotDims.lhsIdx
  rw [dif_neg (show ¬(0 : Fin S1024x512.rank) ∈ dot_S1024x512_S1000x512_S1024x1000_1_1_0_0_n_n.lhsBatch by decide), dif_pos (show (0 : Fin S1024x512.rank) ∈ dot_S1024x512_S1000x512_S1024x1000_1_1_0_0_n_n.lhsNonContracting by decide)]
  rfl
/-- its column the contraction position. -/
theorem lhs_dot_1 (i : S1024x1000.Idx) (q : dot_S1024x512_S1000x512_S1024x1000_1_1_0_0_n_n.contr.Idx) :
    (dot_S1024x512_S1000x512_S1024x1000_1_1_0_0_n_n.lhsIdx i q 1).val = (q ⟨0, by decide⟩).val :=
  dot_S1024x512_S1000x512_S1024x1000_1_1_0_0_n_n.lhsIdx_val_of_single rfl i q
/-- The right operand's index: its row is the output's column (the class), -/
theorem rhs_dot_0 (i : S1024x1000.Idx) (q : dot_S1024x512_S1000x512_S1024x1000_1_1_0_0_n_n.contr.Idx) :
    (dot_S1024x512_S1000x512_S1024x1000_1_1_0_0_n_n.rhsIdx i q 0).val = (i 1).val := by
  unfold DotDims.rhsIdx
  rw [dif_neg (show ¬(0 : Fin S1000x512.rank) ∈ dot_S1024x512_S1000x512_S1024x1000_1_1_0_0_n_n.rhsBatch by decide), dif_pos (show (0 : Fin S1000x512.rank) ∈ dot_S1024x512_S1000x512_S1024x1000_1_1_0_0_n_n.rhsNonContracting by decide)]
  rfl
/-- its column the contraction position. -/
theorem rhs_dot_1 (i : S1024x1000.Idx) (q : dot_S1024x512_S1000x512_S1024x1000_1_1_0_0_n_n.contr.Idx) :
    (dot_S1024x512_S1000x512_S1024x1000_1_1_0_0_n_n.rhsIdx i q 1).val = (q ⟨0, by decide⟩).val :=
  dot_S1024x512_S1000x512_S1024x1000_1_1_0_0_n_n.rhsIdx_val_of_single rfl i q

/-- The product into the zero accumulator, at `(r, k)`: the inner product of row `r` of the tile with centre `k`. -/
theorem dotp_apply (v0 : FVec Ideal S1024x512 .f32) (v1 : FVec Ideal S1000x512 .bf16) (r : Fin 1024) (k : Fin 1000) :
    matmul (F := Ideal) dot_S1024x512_S1000x512_S1024x1000_1_1_0_0_n_n none (truncf .bf16 v0 bitsLt_bf16_f32)
        (shapeCast S1000x512 v1 shapeCasts_S1000x512_S1000x512) (constant S1024x1000 .f32 0x00000000#32) (ix2 r k)
      = ∑ d : Fin 512, v0 (ix2 r d) * v1 (ix2 k d) := by
  rw [shapeCast_self]
  simp only [matmul]
  rw [Ideal.matmul_constant_zero_apply, ← Equiv.sum_comp (contrEquiv1 dot_S1024x512_S1000x512_S1024x1000_1_1_0_0_n_n 512 rfl rfl).symm]
  refine Finset.sum_congr rfl fun d _ => ?_
  have hk := contrEquiv1_symm_val dot_S1024x512_S1000x512_S1024x1000_1_1_0_0_n_n 512 rfl rfl d
  have el : dot_S1024x512_S1000x512_S1024x1000_1_1_0_0_n_n.lhsIdx (ix2 r k) ((contrEquiv1 dot_S1024x512_S1000x512_S1024x1000_1_1_0_0_n_n 512 rfl rfl).symm d) = ix2 r d := funext fun a => Fin.ext (by
    match a with
    | ⟨0, _⟩ => exact lhs_dot_0 _ _
    | ⟨1, _⟩ => exact (lhs_dot_1 _ _).trans hk)
  have er : dot_S1024x512_S1000x512_S1024x1000_1_1_0_0_n_n.rhsIdx (ix2 r k) ((contrEquiv1 dot_S1024x512_S1000x512_S1024x1000_1_1_0_0_n_n 512 rfl rfl).symm d) = ix2 k d := funext fun a => Fin.ext (by
    match a with
    | ⟨0, _⟩ => exact rhs_dot_0 _ _
    | ⟨1, _⟩ => exact (rhs_dot_1 _ _).trans hk)
  rw [el, er]
  rfl

/-! ## The table of floored squared distances, at an entry -/

/-- The table's entry at `(r, k)` is the floored squared distance from row `r` to centre `k`. -/
theorem table_apply (v0 : Vec Ideal S1024x512 .f32) (v1 : Vec Ideal S1000x512 .bf16) (v5 : Vec Ideal S1x1000 .f32)
    (r : Fin 1024) (k : Fin 1000) :
    k0_pay2 (F := Ideal) v0 v1 v5 (ix2 r k)
      = sqDist (fun d => v0 (ix2 r d)) (fun d => v1 (ix2 k d)) (v5 (ix2 0 k)) := by
  unfold k0_pay2 sqDist
  show max ((_ + _) - two * _) zeroW = _
  rw [rowsq_apply v0 r k, cnorm_apply v5 r k, dotp_apply v0 v1 r k]

/-! ## The one-hot mask of the labels, at an entry -/

/-- The mask's bit at `(r, k)` compares the class index `k`, as a word, with row `r`'s label word. -/
theorem mask_word (v3 : Vec Ideal S1024x1 .i32) (r : Fin 1024) (k : Fin 1000) :
    k0_pay3 (F := Ideal) v3 (ix2 r k) = IntOp.cmpi .eq (BitVec.ofNat 32 k.val) (v3 (ix2 r 0)) := by
  unfold k0_pay3
  show IntOp.cmpi .eq (iota .tc S1024x1000 32 [1] iota_S1024x1000_d1_w32 (ix2 r k))
    (broadcastTo S1024x1000 (shapeCast S1024x1 v3 shapeCasts_S1024x1_S1024x1) broadcasts_S1024x1_S1024x1000 (ix2 r k)) = _
  rw [iota_single_apply, shapeCast_self, broadcastTo_a1_ab_apply]

/-- For labels below 1000 the words are equal exactly when the numbers are: the mask is the one-hot of the label. -/
theorem mask_apply (v3 : Vec Ideal S1024x1 .i32) (lab : Fin 1024 → Fin 1000)
    (hl : ∀ r : Fin 1024, v3 (ix2 r 0) = BitVec.ofNat 32 (lab r).val) (r : Fin 1024) (k : Fin 1000) :
    k0_pay3 (F := Ideal) v3 (ix2 r k) = if k = lab r then 1#1 else 0#1 := by
  rw [mask_word, hl r]
  by_cases h : k = lab r
  · rw [if_pos h, h]; exact IntOp.cmpi_eq.mpr rfl
  · rw [if_neg h]
    refine eq_zero_of_ne_one fun h1 => h (Fin.ext ?_)
    have e := congrArg BitVec.toNat (IntOp.cmpi_eq.mp h1)
    simp only [BitVec.toNat_ofNat] at e
    have := k.isLt; have := (lab r).isLt
    omega

/-! ## `pos + margin`: half the masked lane sum, plus the margin -/

/-- Row `r` of the table with the class coordinate `k` put back is the entry `(r, k)`. -/
theorem lift_row (r : Fin 1024) (k : Fin 1000) :
    reduces_S1024x1000_S1024.lift (ix1 r) k = ix2 r k := by
  funext a; match a with | ⟨0, _⟩ => rfl | ⟨1, _⟩ => rfl

/-- `pos + margin` at row `r`: the masked lane sum selects the own-class distance; half of it, plus the margin. -/
theorem pos_apply (v0 : Vec Ideal S1024x512 .f32) (v1 : Vec Ideal S1000x512 .bf16) (v3 : Vec Ideal S1024x1 .i32)
    (v5 : Vec Ideal S1x1000 .f32) (lab : Fin 1024 → Fin 1000)
    (hl : ∀ r : Fin 1024, v3 (ix2 r 0) = BitVec.ofNat 32 (lab r).val) (r : Fin 1024) :
    k0_pay5 (F := Ideal) v0 v1 v3 v5 (ix2 r 0)
      = sqDist (fun d => v0 (ix2 r d)) (fun d => v1 (ix2 (lab r) d)) (v5 (ix2 0 (lab r))) * half + margin := by
  unfold k0_pay5
  show (shapeCast S1024x1 (multiReduction (F := Ideal) .add [1] S1024
      (select (k0_pay3 (F := Ideal) v3) (k0_pay2 (F := Ideal) v0 v1 v5) (broadcast S1024x1000 zeroW)) 0x00000000#32
      reduces_S1024x1000_S1024 (.inl rfl) rfl) shapeCasts_S1024_S1024x1 (ix2 r 0)) * half + margin = _
  refine congrArg (fun t => t * half + margin) ?_
  refine (shapeCast_a_a1_apply _ _ r 0).trans ?_
  refine (Ideal.multiReduction_add_single _ _ _ _ _ _).trans ?_
  refine Eq.trans (Finset.sum_congr rfl fun (k : Fin 1000) _ => ?_)
    (sum_onehot (fun k => sqDist (fun d => v0 (ix2 r d)) (fun d => v1 (ix2 k d)) (v5 (ix2 0 k))) (lab r))
  refine (congrArg _ (lift_row r k)).trans ?_
  rw [select_apply, mask_apply v3 lab hl r k, table_apply]
  by_cases h : k = lab r
  · rw [if_pos h, if_pos h, select_one]
  · rw [if_neg h, if_neg h, select_zero]; rfl

/-! ## `neg`: half the lane minimum of the table with the own class's entry at `+∞` -/

/-- A lane minimum over one axis is the fold of `min` from the accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (fun k => src (h.lift j k)) := by
  rw [multiReduction_minimumf_eq_fold]; exact h.fold_filter_drop_single _ _ src j

/-- The lane minimum of a 1024 × 1000 table, at row `r`: the fold of `min` from `+∞` over the row's entries. -/
theorem lane_min (src : FVec Ideal S1024x1000 .f32) (r : Fin 1024) :
    multiReduction (F := Ideal) .minimumf [1] S1024 src 0x7F800000#32 reduces_S1024x1000_S1024 (.inl rfl) rfl (ix1 r)
      = (Finset.univ : Finset (Fin 1000)).fold min infW (fun k => src (ix2 r k)) := by
  refine (multiReduction_minimumf_single src _ _ _ _ _).trans ?_
  refine Finset.fold_congr fun (k : Fin 1000) _ => ?_
  exact congrArg src (lift_row r k)

/-- The mask's set word, widened and read as a signed integer, is the real `1`. -/
theorem sitofp_set : FloatOps.sitofp (F := Ideal) .f32 ((1#1 : BitVec 1).setWidth 32) = ((1 : ℝ) : EReal) := by
  show (((((1#1 : BitVec 1).setWidth 32).toInt : ℤ) : ℝ) : EReal) = _
  rw [show ((1#1 : BitVec 1).setWidth 32).toInt = 1 by decide, Int.cast_one]

/-- The cleared word is the real `0`. -/
theorem sitofp_clear : FloatOps.sitofp (F := Ideal) .f32 ((0#1 : BitVec 1).setWidth 32) = ((0 : ℝ) : EReal) := by
  show (((((0#1 : BitVec 1).setWidth 32).toInt : ℤ) : ℝ) : EReal) = _
  rw [show ((0#1 : BitVec 1).setWidth 32).toInt = 0 by decide, Int.cast_zero]

/-- The named large constant denotes `+∞`. -/
theorem pos_big : Named.named (F := Ideal) Cert.KernelIdeal.κ "pos_big" (φ := .f32) 0x7149F2CA#32 = ⊤ :=
  IdealRules.named_const.ideal_named_scalar _ _ _ _ rfl

/-- The table plus the mask times `+∞`, at an entry: `+∞` at the row's own class, the distance elsewhere. -/
theorem masked_entry (v0 : Vec Ideal S1024x512 .f32) (v1 : Vec Ideal S1000x512 .bf16) (v3 : Vec Ideal S1024x1 .i32)
    (v5 : Vec Ideal S1x1000 .f32) (lab : Fin 1024 → Fin 1000)
    (hl : ∀ r : Fin 1024, v3 (ix2 r 0) = BitVec.ofNat 32 (lab r).val) (r : Fin 1024) (k : Fin 1000) :
    addf (k0_pay2 (F := Ideal) v0 v1 v5) (mulf (sitofp .f32 (extui 32 (k0_pay3 (F := Ideal) v3) natLt_1_32))
        (broadcast S1024x1000 (Named.named (F := Ideal) Cert.KernelIdeal.κ "pos_big" (φ := .f32) 0x7149F2CA#32))) (ix2 r k)
      = if k = lab r then infW else sqDist (fun d => v0 (ix2 r d)) (fun d => v1 (ix2 k d)) (v5 (ix2 0 k)) := by
  show k0_pay2 (F := Ideal) v0 v1 v5 (ix2 r k)
      + FloatOps.sitofp (F := Ideal) .f32 ((k0_pay3 (F := Ideal) v3 (ix2 r k)).setWidth 32)
        * Named.named (F := Ideal) Cert.KernelIdeal.κ "pos_big" (φ := .f32) 0x7149F2CA#32 = _
  rw [mask_apply v3 lab hl r k, table_apply, pos_big]
  by_cases h : k = lab r
  · rw [if_pos h, if_pos h, sitofp_set, infW_eq]
    exact add_one_mul_top (sqDist_ne_bot _ _ _)
  · rw [if_neg h, if_neg h, sitofp_clear]
    exact add_zero_mul_top _

/-- `neg` as the printed operations compose it: the lane minimum, as a column, times the splat of `1/2`. -/
theorem neg_eq (v0 : Vec Ideal S1024x512 .f32) (v1 : Vec Ideal S1000x512 .bf16) (v3 : Vec Ideal S1024x1 .i32)
    (v5 : Vec Ideal S1x1000 .f32) :
    k0_pay4 (F := Ideal) v0 v1 v3 v5
      = mulf (shapeCast S1024x1 (multiReduction (F := Ideal) .minimumf [1] S1024
          (addf (k0_pay2 (F := Ideal) v0 v1 v5) (mulf (sitofp .f32 (extui 32 (k0_pay3 (F := Ideal) v3) natLt_1_32))
            (broadcast S1024x1000 (Named.named (F := Ideal) Cert.KernelIdeal.κ "pos_big" (φ := .f32) 0x7149F2CA#32))))
          0x7F800000#32 reduces_S1024x1000_S1024 (.inl rfl) rfl) shapeCasts_S1024_S1024x1) (broadcast S1024x1 half) := rfl

/-- A product with a splat, at an index. -/
theorem mulf_broadcast_apply {s : Shape} (a : FVec Ideal s .f32) (c : EReal) (i : s.Idx) :
    mulf a (broadcast s c) i = a i * c := rfl

/-- `neg` at row `r`: half the least distance to a class other than the row's own. -/
theorem neg_apply (v0 : Vec Ideal S1024x512 .f32) (v1 : Vec Ideal S1000x512 .bf16) (v3 : Vec Ideal S1024x1 .i32)
    (v5 : Vec Ideal S1x1000 .f32) (lab : Fin 1024 → Fin 1000)
    (hl : ∀ r : Fin 1024, v3 (ix2 r 0) = BitVec.ofNat 32 (lab r).val) (r : Fin 1024) :
    k0_pay4 (F := Ideal) v0 v1 v3 v5 (ix2 r 0)
      = nearestOther (fun k => sqDist (fun d => v0 (ix2 r d)) (fun d => v1 (ix2 k d)) (v5 (ix2 0 k))) (lab r) * half := by
  refine (congrFun (neg_eq v0 v1 v3 v5) (ix2 r 0)).trans ?_
  refine (mulf_broadcast_apply _ _ _).trans ?_
  refine congrArg (fun t => t * half) ?_
  refine (shapeCast_a_a1_apply _ _ r 0).trans ?_
  refine (lane_min _ r).trans ?_
  exact Finset.fold_congr fun (k : Fin 1000) _ => masked_entry v0 v1 v3 v5 lab hl r k

/-! ## The row losses, summed over the tile and broadcast to the lanes -/

/-- The one column of a 1024 × 1 vector with the row coordinate `r` put back is the entry `(r, 0)`. -/
theorem lift_col (r : Fin 1024) : reduces_S1024x1_S1.lift (ix1 (0 : Fin 1)) r = ix2 r (0 : Fin 1) := by
  funext a; match a with | ⟨0, _⟩ => rfl | ⟨1, _⟩ => rfl

/-- The stored block, at any lane: the sum over the tile's rows of `log (1 + exp (pos + margin − neg))`. -/
theorem loss_apply (v37 v39 : FVec Ideal S1024x1 .f32) (y : S1x1x128.Idx) :
    k0_pay1 (F := Ideal) v37 v39 y = ∑ r : Fin 1024, Ideal.log1p (Ideal.exp (v39 (ix2 r 0) - v37 (ix2 r 0))) := by
  unfold k0_pay1
  refine (broadcastTo_apply _ broadcasts_S1x1x1_S1x1x128 y (ix3 (0 : Fin 1) (0 : Fin 1) (0 : Fin 1)) fun a => ?_).trans ?_
  · match a with
    | ⟨0, _⟩ => rfl
    | ⟨1, _⟩ => rfl
    | ⟨2, _⟩ => rfl
  rw [shapeCast_self]
  refine (shapeCast_ab_1ab_apply _ _ 0 0 0).trans ?_
  refine (shapeCast_a_1a_apply _ _ 0 0).trans ?_
  refine (Ideal.multiReduction_add_single _ _ _ _ _ _).trans ?_
  refine Finset.sum_congr rfl fun (r : Fin 1024) _ => ?_
  refine (congrArg _ (lift_col r)).trans ?_
  rfl

/-! ## The block a grid point writes -/

/-- Every lane of the block a grid point writes holds the sum over the tile's 1024 rows of the row losses: row `r` of `x0`, the
    centres `x2` with squared norms `x3`, the label `lab r` that `x1` holds for the row. -/
theorem tile_value (x0 : Vec Ideal S1024x512 .f32) (x1 : Vec Ideal S1024x1 .i32) (x2 : Vec Ideal S1000x512 .bf16)
    (x3 : Vec Ideal S1x1000 .f32) (lab : Fin 1024 → Fin 1000)
    (hl : ∀ r : Fin 1024, x1 (ix2 r 0) = BitVec.ofNat 32 (lab r).val) (y : S1x1x128.Idx) :
    out0_4 (F := Ideal) x0 x1 x2 x3 y
      = ∑ r : Fin 1024, rowLoss (fun d => x0 (ix2 r d)) (fun k d => x2 (ix2 k d)) (fun k => x3 (ix2 0 k)) (lab r) := by
  have hz3 : (![0, 0, 0] : Fin 3 → Nat) = fun _ => 0 := by funext a; fin_cases a <;> rfl
  have hz2 : (![0, 0] : Fin 2 → Nat) = fun _ => 0 := by funext a; fin_cases a <;> rfl
  unfold out0_4
  rw [View.canon_unit_zero hz3]
  simp only [View.ld_unit_zero (S := S1024x512) hz2, View.ld_unit_zero (S := S1000x512) hz2,
    View.ld_unit_zero (S := S1024x1) hz2, View.ld_unit_zero (S := S1x1000) hz2]
  rw [loss_apply]
  refine Finset.sum_congr rfl fun r _ => ?_
  rw [pos_apply x0 x2 x1 x3 lab hl r, neg_apply x0 x2 x1 x3 lab hl r]
  rfl

end Cert.KernelIdeal.Tile

end
-- ==== Proof.KernelArray.lean ====
/-
  The kernel's result is the mean row loss.

  Before the region the host reshapes the labels into a column, casts the centres (the identity on the extended reals) and forms each
  centre's squared norm as the zero word plus the sum of its squares. Grid point `t` of 16 works on tile `t`: its block of the batch
  is rows `1024·t … 1024·t + 1023`, its block of the labels those rows' labels, and its blocks of the centres and of the norms are
  the whole arrays. So what the point writes back — the sum of its tile's row losses in every lane of row `t` of the 16 × 1 × 128 output
  — is the block at `t` of ONE function of the argument arrays, the 16 rows cover the output, and the output array after the run is that
  function. After the region the host takes lane 0 of every row, sums the 16 tile sums from the zero word and divides by the batch
  size: a sum over 16 tiles of sums over 1024 rows is the sum over the 16384 rows, so the result is `Cert.CenterLoss.meanLoss` of the
  row losses.
-/
import proofs.«416742_j15917148799624_3_alg».proof.Proof.Gen.KernelIdeal.Frame
import proofs.«416742_j15917148799624_3_alg».proof.Proof.Spec
import proofs.«416742_j15917148799624_3_alg».proof.Proof.KernelTile
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section
namespace Cert.KernelIdeal.ArrayValue
open Cert.KernelIdeal Cert.KernelIdeal.Gen Idealize.ShloMosaic Idealize.ShloMosaic.TcCoe Idealize.SL.Sem Idealize.ShloMosaic.ValueIdx Cert.CenterLoss
open Idealize.ShloMosaic.Pipeline (Dat)

variable (m : (ℓ : Loc nD τ sig) → Buf (Elt Ideal) ℓ) (ρ : Dev nD → PrngReg)

/-- The three argument arrays as launched, at their literal types. -/
abbrev Xarr (c : Dev nD) : FVec Ideal S16384x512 .f32 := m ((c : Thread nD τ).loc main_arg0)
abbrev Carr (c : Dev nD) : FVec Ideal S1000x512 .f32 := m ((c : Thread nD τ).loc main_arg1)
abbrev Larr (c : Dev nD) : IVec S16384 32 := m ((c : Thread nD τ).loc main_arg2)

/-- The region finds the labels reshaped into a column, -/
theorem V_labels (c : Dev nD) : (V m c main_v0 : S16384x1.Idx → BitVec 32)
    = shapeCast S16384x1 (m ((c : Thread nD τ).loc main_arg2)) shapeCasts_S16384_S16384x1 := by
  show StableHlo.after hostOps0 (fun b => m (c, b)) (Proc.devRef .tc main_v0) = _
  after_results
  rfl

/-- the centres as launched (the narrower float format is the same extended real), -/
theorem V_centers (c : Dev nD) : (V m c main_v1 : S1000x512.Idx → EReal)
    = (m ((c : Thread nD τ).loc main_arg1) : S1000x512.Idx → EReal) := by
  show StableHlo.after hostOps0 (fun b => m (c, b)) (Proc.devRef .tc main_v1) = _
  after_results
  rfl

/-- and the row of squared norms: the host's sum of the centres' squares from the zero word, laid out as a row. -/
theorem V_norms (c : Dev nD) : (V m c main_v4 : S1x1000.Idx → EReal)
    = broadcastInDim S1x1000 ![1] bcast_S1000_S1x1000_1 (Host.reduceAdd (F := Ideal) (mulf (m ((c : Thread nD τ).loc main_arg1)) (m ((c : Thread nD τ).loc main_arg1))) (constant (F := Ideal) S_ .f32 0x00000000#32) reducesTo_S1000x512_S1000_d1 h_S_) := by
  show StableHlo.after hostOps0 (fun b => m (c, b)) (Proc.devRef .tc main_v4) = _
  after_results

/-- The tile a grid point works on. -/
def tileOf (t : Fin cfg0.N) : Fin 16 := ⟨t.val, lt_of_lt_of_eq t.isLt N_0⟩

/-- The index maps over the 16 grid points: the batch, the labels and the output move with the point on their leading axis; the
    centres and the norms stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Row `r` of the tile's block of the batch is row `1024·t + r` of the batch. -/
theorem blk_rows (c : Dev nD) (t : Fin cfg0.N) (r : Fin 1024) (d : Fin 512) :
    (iblk m c 0 t : S1024x512.Idx → EReal) (ix2 r d) = Xarr m c (ix2 (tileRow (tileOf t) r) d) := by
  obtain ⟨e0, e1, -⟩ := idx_facts t
  show (V m c main_arg0 : S16384x512.Idx → EReal) (((cfg0.win 0).blk t).view.emb (ix2 r d)) = _
  rw [V_main_arg0]
  refine congrArg _ (funext fun a => Fin.ext ?_)
  match a with
  | ⟨0, _⟩ => show win0_0.index t (0 : Fin 2) * 1024 + 1 * r.val = 1024 * t.val + r.val; omega
  | ⟨1, _⟩ => show win0_0.index t (1 : Fin 2) * 512 + 1 * d.val = d.val; omega

/-- The tile's block of the labels, a column, holds at row `r` the label of row `1024·t + r`. -/
theorem blk_labels (c : Dev nD) (t : Fin cfg0.N) (r : Fin 1024) :
    (iblk m c 1 t : S1024x1.Idx → BitVec 32) (ix2 r 0) = Larr m c (ix1 (tileRow (tileOf t) r)) := by
  obtain ⟨-, -, e0, e1, -⟩ := idx_facts t
  show (V m c main_v0 : S16384x1.Idx → BitVec 32) (((cfg0.win 1).blk t).view.emb (ix2 r 0)) = _
  rw [V_labels]
  refine shapeCast_apply _ _ _ _ ?_
  show (S16384.rowMajor (ix1 (tileRow (tileOf t) r))).val = (S16384x1.rowMajor (((cfg0.win 1).blk t).view.emb (ix2 r 0))).val
  rw [Shape.rowMajor_val_one, Shape.rowMajor_val_two]
  show 1024 * (tileOf t).val + r.val = (win0_1.index t (0 : Fin 2) * 1024 + 1 * r.val) * 1 + (win0_1.index t (1 : Fin 2) * 1 + 1 * 0)
  show 1024 * t.val + r.val = _
  omega

/-- Every tile's block of the centres is the whole array of centres. -/
theorem blk_centers (c : Dev nD) (t : Fin cfg0.N) (k : Fin 1000) (d : Fin 512) :
    (iblk m c 2 t : S1000x512.Idx → EReal) (ix2 k d) = Carr m c (ix2 k d) := by
  obtain ⟨-, -, -, -, e0, e1, -⟩ := idx_facts t
  show (V m c main_v1 : S1000x512.Idx → EReal) (((cfg0.win 2).blk t).view.emb (ix2 k d)) = _
  rw [V_centers]
  refine congrArg _ (funext fun a => Fin.ext ?_)
  match a with
  | ⟨0, _⟩ => show win0_2.index t (0 : Fin 2) * 1000 + 1 * k.val = k.val; omega
  | ⟨1, _⟩ => show win0_2.index t (1 : Fin 2) * 512 + 1 * d.val = d.val; omega

/-- Every tile's block of the squared norms holds, at class `k`, the zero word plus the sum of the squares of centre `k`. -/
theorem blk_norms (c : Dev nD) (t : Fin cfg0.N) (k : Fin 1000) :
    (iblk m c 3 t : S1x1000.Idx → EReal) (ix2 0 k)
      = zeroW + ∑ d : Fin 512, Carr m c (ix2 k d) * Carr m c (ix2 k d) := by
  obtain ⟨-, -, -, -, -, -, e0, e1, -⟩ := idx_facts t
  show (V m c main_v4 : S1x1000.Idx → EReal) (((cfg0.win 3).blk t).view.emb (ix2 0 k)) = _
  rw [V_norms]
  refine (broadcastInDim_apply _ _ _ _ (ix1 k) (fun a => ?_)).trans ?_
  · match a with
    | ⟨0, _⟩ => show k.val = win0_3.index t (1 : Fin 2) * 1000 + 1 * k.val; omega
  · show Host.reduceAdd (F := Ideal) (mulf (Carr m c) (Carr m c)) (constant (F := Ideal) S_ .f32 0x00000000#32) reducesTo_S1000x512_S1000_d1 h_S_ (ix1 k) = _
    generalize Carr m c = C
    simp only [Host.reduceAdd, Ideal.hostReduceAdd_def]
    rw [Ideal.hostReduceAdd_single reducesTo_S1000x512_S1000_d1 (by decide)]
    refine congrArg (_ + ·) (Finset.sum_congr rfl fun d _ => ?_)
    have e : (Shape.Reduces.lift (by decide : S1000x512.Reduces [1] S1000) (ix1 k) d) = ix2 k d :=
      funext fun a => Fin.ext (by match a with | ⟨0, _⟩ => rfl | ⟨1, _⟩ => rfl)
    exact congrArg (fun i => C i * C i) e

/-- The squared norm of centre `k` as the host computes it before the region: the zero word plus the sum of its squares. -/
def normOf (c : Dev nD) (k : Fin 1000) : EReal := zeroW + ∑ d : Fin 512, Carr m c (ix2 k d) * Carr m c (ix2 k d)

/-- The loss of row `R` of the batch, for the labels `lab`. -/
def lossOf (c : Dev nD) (lab : Fin 16384 → Fin 1000) (R : Fin 16384) : EReal :=
  rowLoss (fun d => Xarr m c (ix2 R d)) (fun k d => Carr m c (ix2 k d)) (normOf m c) (lab R)

/-- The output array: every lane of row `t` holds the sum of tile `t`'s row losses. -/
def Gout (c : Dev nD) (lab : Fin 16384 → Fin 1000) : S16x1x128.Idx → EReal :=
  fun i => ∑ r : Fin 1024, lossOf m c lab (tileRow ⟨(i 0).val, (i 0).isLt⟩ r)

/-- What grid point `t` writes back is the block at `t` of the output function. -/
theorem flushed4_eq (c : Dev nD) (lab : Fin 16384 → Fin 1000) (hlab : ∀ R, Larr m c (ix1 R) = BitVec.ofNat 32 (lab R).val)
    (t : Fin cfg0.N) :
    (dats m 0 c).flushed 4 t = ((cfg0.win 4).blk t).view.read (Elt Ideal) (Gout m c lab) := by
  show (cfg0.win 4).cut (grid0.coords t) ((dats m 0 c).after 4 t) = _
  rw [after0_4]
  obtain ⟨-, -, -, -, -, -, -, -, e0, e1, e2⟩ := idx_facts t
  funext y
  show out0_4 (F := Ideal) (iblk m c 0 t) (iblk m c 1 t) (iblk m c 2 t) (iblk m c 3 t) y = Gout m c lab (((cfg0.win 4).blk t).view.emb y)
  refine (Tile.tile_value _ _ _ _ (fun r => lab (tileRow (tileOf t) r)) (fun r => (blk_labels m c t r).trans (hlab _)) y).trans ?_
  have hrow : (⟨((((cfg0.win 4).blk t).view.emb y) 0).val, ((((cfg0.win 4).blk t).view.emb y) 0).isLt⟩ : Fin 16) = tileOf t :=
    Fin.ext (show win0_4.index t (0 : Fin 3) * 1 + 1 * (y 0).val = t.val by have := (y 0).isLt; have : (y 0).val < 1 := this; omega)
  unfold Gout
  rw [hrow]
  refine Finset.sum_congr rfl fun r _ => ?_
  have h0 : ((fun d => iblk m c 0 t (ix2 r d)) : Fin 512 → EReal) = fun d => Xarr m c (ix2 (tileRow (tileOf t) r) d) :=
    funext fun d => blk_rows m c t r d
  have h2 : ((fun k d => iblk m c 2 t (ix2 k d)) : Fin 1000 → Fin 512 → EReal) = fun k d => Carr m c (ix2 k d) :=
    funext fun k => funext fun d => blk_centers m c t k d
  have h3 : ((fun k => iblk m c 3 t (ix2 0 k)) : Fin 1000 → EReal) = normOf m c :=
    funext fun k => blk_norms m c t k
  exact congrFun (congr (congr (congrArg rowLoss h0) h2) h3) _

/-- An index of the output is in point `t`'s block iff each coordinate is in the block's range on its axis. -/
theorem mem_blk4 (t : Fin cfg0.N) (i : S16x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v5).slice (win0_4.rect t)).set ↔ _
  rw [View.set_slice_whole, Rect.mem_set_unit]
  exact Iff.rfl

/-- Every index of the output is in the block of the point its leading coordinate names. -/
theorem cover4 (i : S16x1x128.Idx) : ∃ t : Fin cfg0.N, (cfg0.win 4).flush t = true ∧ i ∈ ((cfg0.win 4).blk t).view.set := by
  have h0 : (i 0).val < 16 := (i 0).isLt
  have h1 : (i 1).val < 1 := (i 1).isLt
  have h2 : (i 2).val < 128 := (i 2).isLt
  obtain ⟨-, -, -, -, -, -, -, -, e0, e1, e2⟩ := idx_facts ⟨(i 0).val, lt_of_lt_of_eq h0 N_0.symm⟩
  refine ⟨⟨(i 0).val, lt_of_lt_of_eq h0 N_0.symm⟩, flush0_4 _, ?_⟩
  rw [mem_blk4]
  intro a
  match a with
  | ⟨0, _⟩ =>
    have e0' : win0_4.index ⟨(i 0).val, lt_of_lt_of_eq h0 N_0.symm⟩ (0 : Fin 3) = (i 0).val := e0
    show win0_4.index ⟨(i 0).val, _⟩ (0 : Fin 3) * 1 ≤ (i 0).val ∧ (i 0).val < win0_4.index ⟨(i 0).val, _⟩ (0 : Fin 3) * 1 + 1; rw [e0']; omega
  | ⟨1, _⟩ => show win0_4.index ⟨(i 0).val, _⟩ (1 : Fin 3) * 1 ≤ (i 1).val ∧ (i 1).val < win0_4.index ⟨(i 0).val, _⟩ (1 : Fin 3) * 1 + 1; rw [e1]; omega
  | ⟨2, _⟩ => show win0_4.index ⟨(i 0).val, _⟩ (2 : Fin 3) * 128 ≤ (i 2).val ∧ (i 2).val < win0_4.index ⟨(i 0).val, _⟩ (2 : Fin 3) * 128 + 128; rw [e2]; omega

/-- The output array after the run is the output function. -/
theorem final4 (c : Dev nD) (lab : Fin 16384 → Fin 1000) (hlab : ∀ R, Larr m c (ix1 R) = BitVec.ofNat 32 (lab R).val) :
    (dats m 0 c).arrAt 4 cfg0.N = Gout m c lab :=
  (dats m 0 c).arrAt_eq_of_cover 4 (Gout m c lab) (fun t _ => flushed4_eq m c lab hlab t) cover4

/-- The host operations after the region read that array. -/
theorem out_array (c : Dev nD) (lab : Fin 16384 → Fin 1000) (hlab : ∀ R, Larr m c (ix1 R) = BitVec.ofNat 32 (lab R).val) :
    (Pipeline.withArrays (cfgs 0).spec c (V0 m c) (fun w => (dats m 0 c).arrAt w (cfgs 0).N) (Proc.devRef .tc main_v5) : S16x1x128.Idx → EReal)
      = Gout m c lab :=
  (Pipeline.withArrays_arr spec0 launch0.win.arr_inj c _ _ 4).trans (final4 m c lab hlab)

/-- Lane 0 of every row, summed over the 16 rows from the zero word and divided by the batch size, is the mean over the batch of the
    row losses. -/
theorem tail_value (c : Dev nD) (lab : Fin 16384 → Fin 1000) (hlab : ∀ R, Larr m c (ix1 R) = BitVec.ofNat 32 (lab R).val) :
    (Pipeline.afterTail₀ cfgs (dats m) 0 (V0 m) [hostOps1] c main_v9 : S_.Idx → EReal) = fun _ => meanLoss (lossOf m c lab) := by
  unfold Pipeline.afterTail₀
  show StableHlo.after hostOps1 _ (Proc.devRef .tc main_v9) = _
  after_results
  funext j
  show Ideal.div (Host.reduceAdd (F := Ideal) (shapeCast S16 (extractStridedSlice S16x1x1 ![0, 0, 0]
      (Pipeline.withArrays (cfgs 0).spec c (V0 m c) (fun w => (dats m 0 c).arrAt w (cfgs 0).N) (Proc.devRef .tc main_v5) : S16x1x128.Idx → EReal)
      slices_S16x1x128_S16x1x1_0_0_0) shapeCasts_S16x1x1_S16) (constant (F := Ideal) S_ .f32 0x00000000#32) reducesTo_S16_S_d0 h_S_ j) count = _
  rw [out_array m c lab hlab]
  unfold meanLoss
  refine congrArg (Ideal.div · count) ?_
  simp only [Host.reduceAdd, Ideal.hostReduceAdd_def]
  rw [Ideal.hostReduceAdd_total reducesTo_S16_S_d0 (fun b => b.elim0)]
  refine congrArg (zeroW + ·) ?_
  rw [sum_tiles]
  refine Fintype.sum_equiv ⟨fun i : S16.Idx => (⟨(i 0).val, (i 0).isLt⟩ : Fin 16), fun t => ix1 t, fun i => (eq_ix1 i).symm, fun t => rfl⟩ _ _ (fun i => ?_)
  refine (shapeCast_apply _ _ _ (ix3 ⟨(i 0).val, (i 0).isLt⟩ (0 : Fin 1) (0 : Fin 1)) ?_).trans ?_
  · show (S16x1x1.rowMajor (ix3 ⟨(i 0).val, (i 0).isLt⟩ (0 : Fin 1) (0 : Fin 1))).val = (S16.rowMajor i).val
    rw [Shape.rowMajor_val_three, Shape.rowMajor_val_one]
    show ((i 0).val * 1 + 0) * 1 + 0 = (i 0).val
    omega
  refine (extractStridedSlice_apply _ _ _ _ (ix3 ⟨(i 0).val, (i 0).isLt⟩ (0 : Fin 1) (0 : Fin 128)) (fun a => ?_)).trans ?_
  · match a with
    | ⟨0, _⟩ => show (i 0).val = 0 + (i 0).val; omega
    | ⟨1, _⟩ => rfl
    | ⟨2, _⟩ => rfl
  rfl

/-- Every weakly fair execution of the kernel's program terminates with its result the mean of the row losses and its arguments
    unchanged, for labels that are class indices. -/
theorem run (lab : Dev nD → Fin 16384 → Fin 1000) (hlab : ∀ c R, Larr m c (ix1 R) = BitVec.ofNat 32 (lab c R).val) :
    θ_run defs (onTc (τ := τ) (main (F := Ideal))) ⟨m, fun _ => 0, ρ⟩ fun r => ∀ c : Dev nD,
      r.2.mem ((c.tc : Thread nD τ).loc main_v9) = (fun _ => meanLoss (lossOf m c (lab c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v9 (Pipeline.mem_restRefs_of main_v9 (by decide) (by decide))).trans (tail_value m c (lab c) (hlab c)),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.ArrayValue
end
-- ==== Proof.PreLabels.lean ====
/-
  What the precondition says of the labels.

  The precondition is the conjunction of three tests, each an `and` over a whole array: every entry of `x` is finite, every entry
  of `centers` is finite, and every label `ℓ` satisfies `0 ≤ ℓ` and `ℓ < 1000` as signed 32-bit integers. Where it holds, each label
  word is the word of a natural number below 1000: a class index.
-/
import proofs.«416742_j15917148799624_3_alg».proof.Pre_finite_inputs
import proofs.«416742_j15917148799624_3_alg».proof.Proof.Gen.Pre_finite_inputs
import Idealize.ShloMosaic.Lib.ReduceAll
import Idealize.ShloMosaic.Lib.ValueIdx

noncomputable section

namespace Cert.Pre_finite_inputs.Labels

open Idealize.ShloMosaic Idealize.ShloMosaic.ValueIdx Cert.Pre_finite_inputs

/-- A rank-0 shape has one index. -/
instance : Subsingleton S_.Idx := ⟨fun _ _ => funext fun d => d.elim0⟩

/-- A 32-bit word that is at least `0` and below `1000` as a signed integer is the word of a natural number below 1000. -/
theorem word_of_range (w : BitVec 32) (hge : (0#32 : BitVec 32).toInt ≤ w.toInt) (hlt : w.toInt < (1000#32 : BitVec 32).toInt) :
    ∃ l : Fin 1000, w = BitVec.ofNat 32 l.val := by
  have h0 : (0#32 : BitVec 32).toInt = 0 := by decide
  have h1 : (1000#32 : BitVec 32).toInt = 1000 := by decide
  rw [h0] at hge; rw [h1] at hlt
  have hN : w.toNat < 2 ^ 32 := w.isLt
  have e := BitVec.toInt_eq_toNat_cond w
  have hlt' : w.toNat < 1000 := by
    split at e <;> omega
  exact ⟨⟨w.toNat, hlt'⟩, by simp⟩

/-- Under the precondition every label is a class index. -/
theorem label_in_range {F : FTy → Type} [FloatOps F] (x : FVec F S16384x512 .f32) (c : FVec F S1000x512 .f32) (L : IVec S16384 32)
    (h : fn (F := F) x c L = fun _ => 1#1) (R : Fin 16384) : ∃ l : Fin 1000, L (ix1 R) = BitVec.ofNat 32 l.val := by
  have h0 := congrFun h ix0
  dsimp only [fn] at h0
  obtain ⟨-, h14⟩ := IntOp.andi_eq_one.1 h0
  have hR := Host.reduce_andi_all _ _ _ _ _ h14 (ix1 R)
  obtain ⟨hge, hlt⟩ := IntOp.andi_eq_one.1 hR
  exact word_of_range (L (ix1 R)) (IntOp.cmpi_sge.1 hge) (IntOp.cmpi_slt.1 hlt)

end Cert.Pre_finite_inputs.Labels

end
-- ==== Proof.lean ====
/-
  The triplet-centre loss: a tiled kernel against its array-level reference, equal on the extended reals.

  For a batch of 16384 rows, 1000 class centres and a class label per row, both programs compute the mean over the batch of
  `log (1 + exp (pos + margin − neg))`, where for each row `pos` is half the floored squared distance to the row's own centre and `neg` is
  half the least floored squared distance to any other centre. The reference reads `pos` out of the table of distances by the label and
  excludes the own class from the minimum by writing `+∞` there; the kernel works tile by tile, takes `pos` as a sum against the one-hot
  mask of the label and excludes the own class by ADDING the mask times a large constant, named `+∞` at the ideal instance, and sums
  each tile's losses before the host sums the tiles. With the labels class indices — which the precondition states, besides the
  finiteness of the float inputs, and which is the only part of it the proof uses — the two are one function:
  `Cert.CenterLoss.meanLoss` of `Cert.CenterLoss.rowLoss` (Proof/Spec.lean). The kernel's side is Proof/KernelTile.lean (one grid point)
  and Proof/KernelArray.lean (the blocks, the output array, the host's operations around the region); the reference's is
  Proof/RefValue.lean over its run read one operation at a time; Proof/PreLabels.lean reads the labels' range out of the precondition.
  The three frames are the generated frame certificates and the reference's run with its result dropped; the idealization's one
  ledger entry is the named constant's statement.
-/
import proofs.«416742_j15917148799624_3_alg».proof.Defs
import proofs.«416742_j15917148799624_3_alg».proof.Proof.Gen.Kernel
import proofs.«416742_j15917148799624_3_alg».proof.Proof.Gen.Kernel.Frame
import proofs.«416742_j15917148799624_3_alg».proof.Proof.Gen.KernelIdeal
import proofs.«416742_j15917148799624_3_alg».proof.Proof.Gen.KernelIdeal.Frame
import proofs.«416742_j15917148799624_3_alg».proof.Proof.Gen.ReferenceIdeal
import proofs.«416742_j15917148799624_3_alg».proof.Proof.Gen.Pre_finite_inputs
import proofs.«416742_j15917148799624_3_alg».proof.Proof.RefRun
import proofs.«416742_j15917148799624_3_alg».proof.Proof.RefRead
import proofs.«416742_j15917148799624_3_alg».proof.Proof.RefValue
import proofs.«416742_j15917148799624_3_alg».proof.Proof.KernelArray
import proofs.«416742_j15917148799624_3_alg».proof.Proof.PreLabels
import Idealize.ShloMosaic.Adequacy
import Idealize.ShloMosaic.Init

noncomputable section

namespace Cert.Proof

open Idealize.ShloMosaic Idealize.SL.Sem Idealize.ShloMosaic.ValueIdx Cert.CenterLoss

/-- The kernel's program, as printed and idealized, terminates without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization's one rewrite: the large constant the kernel adds under the own-class mask is named `+∞`. -/
theorem preserves : Cert.preserves_Kernel_KernelIdeal :=
  IdealRules.named_const.statement Cert.KernelIdeal.κ "pos_big" .f32 0x7149F2CA#32 ⊤ rfl

/-- From memories that agree on the arguments, with every label a class index, both programs end with the mean row loss. -/
theorem algebraic : Cert.algebraic_KernelIdeal_ReferenceIdeal := by
  intro m ρ m' ρ' hpre hagree
  have hl : ∀ (c : Dev Cert.KernelIdeal.nD) (R : Fin 16384), ∃ l : Fin 1000,
      Cert.KernelIdeal.ArrayValue.Larr m c (ix1 R) = BitVec.ofNat 32 l.val :=
    fun c R => Cert.Pre_finite_inputs.Labels.label_in_range _ _ _ (hpre c) R
  choose lab hlab using hl
  refine ⟨fun c _ => meanLoss (Cert.KernelIdeal.ArrayValue.lossOf m c (lab c)),
    Cert.KernelIdeal.ArrayValue.run m ρ lab hlab, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v37_eq, (hagree c).1, (hagree c).2.1, (hagree c).2.2]
  funext i
  exact Cert.ReferenceIdeal.RefValue.ref_value _ _ _ (lab c) (hlab c) i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
